-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x20000x64 : Shape := ⟨3, ![4, 20000, 64]⟩
abbrev S2x320000 : Shape := ⟨2, ![2, 320000]⟩
abbrev S64x64 : Shape := ⟨2, ![64, 64]⟩
abbrev S64 : Shape := ⟨1, ![64]⟩
abbrev S128x128 : Shape := ⟨2, ![128, 128]⟩
abbrev S_ : Shape := ⟨0, ![]⟩

class Facts : Prop where
  bcast_S_S4x20000x64 : S_.BroadcastsInDim S4x20000x64 (![] : Fin 0 → Fin S4x20000x64.rank)
  reducesTo_S4x20000x64_S_d0_1_2 : S4x20000x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  main_v38

def fn_part1 {F : FTy → Type} [FloatOps F] (main_arg5 : FVec F S64x64 .f32) (main_arg6 : FVec F S64x64 .f32) (main_arg7 : FVec F S64x64 .f32) (main_arg8 : FVec F S128x128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S4x20000x64 .f32) (main_arg1 : IVec S2x320000 32) (main_arg2 : FVec F S64x64 .f32) (main_arg3 : FVec F S64 .f32) (main_arg4 : FVec F S64x64 .f32) (main_arg5 : FVec F S64x64 .f32) (main_arg6 : FVec F S64x64 .f32) (main_arg7 : FVec F S64x64 .f32) (main_arg8 : FVec F S128x128 .f32) : IVec S_ 1 :=
  let main_v0 : FVec F S4x20000x64 .f32 := Host.absf main_arg0
  let main_cst : FVec F S_ .f32 := constant S_ .f32 0x7F800000#32
  let main_v1 : FVec F S4x20000x64 .f32 := broadcastInDim S4x20000x64 ![] bcast_S_S4x20000x64 main_cst
  let main_v2 : IVec S4x20000x64 1 := cmpf .olt main_v0 main_v1
  let main_c : IVec S_ 1 := constantI S_ 1 1#1
  let main_v3 : IVec S_ 1 := (fun x v => Host.reduce IntOp.andi x v reducesTo_S4x20000x64_S_d0_1_2 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_v13 main_v16
-- ==== Kernel.lean ====
abbrev S4x20000x64 : Shape := ⟨3, ![4, 20000, 64]⟩
abbrev S2x320000 : Shape := ⟨2, ![2, 320000]⟩
abbrev S64x64 : Shape := ⟨2, ![64, 64]⟩
abbrev S64 : Shape := ⟨1, ![64]⟩
abbrev S128x128 : Shape := ⟨2, ![128, 128]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S80000x64 : Shape := ⟨2, ![80000, 64]⟩
abbrev S8000x64 : Shape := ⟨2, ![8000, 64]⟩
abbrev S_ : Shape := ⟨0, ![]⟩
abbrev S340000x1 : Shape := ⟨2, ![340000, 1]⟩
abbrev S4x340000x64 : Shape := ⟨3, ![4, 340000, 64]⟩
abbrev S1x340000x1 : Shape := ⟨3, ![1, 340000, 1]⟩
abbrev S340000x4x64 : Shape := ⟨3, ![340000, 4, 64]⟩
abbrev S20000x4x64 : Shape := ⟨3, ![20000, 4, 64]⟩
abbrev S80000x128 : Shape := ⟨2, ![80000, 128]⟩
abbrev S4000x64 : Shape := ⟨2, ![4000, 64]⟩
abbrev S4000x128 : Shape := ⟨2, ![4000, 128]⟩
abbrev S1x64 : Shape := ⟨2, ![1, 64]⟩
abbrev S4x20000x128 : Shape := ⟨3, ![4, 20000, 128]⟩

abbrev nBuf : Space → Nat
  | .hbm => 75
  | .vmem => 15
  | .smem => 0
  | _ => 0

abbrev bufTy : (tb : Table) → Fin (tcTables nBuf tb) → BufTy
  | .hbm, ⟨0, _⟩ => ⟨S4x20000x64, .f32⟩
  | .hbm, ⟨1, _⟩ => ⟨S2x320000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S128x128, .f32⟩
  | .hbm, ⟨9, _⟩ => ⟨S20000, .i32⟩
  | .hbm, ⟨10, _⟩ => ⟨S1x320000, .i32⟩
  | .hbm, ⟨11, _⟩ => ⟨S320000, .i32⟩
  | .hbm, ⟨12, _⟩ => ⟨S340000, .i32⟩
  | .hbm, ⟨13, _⟩ => ⟨S1x320000, .i32⟩
  | .hbm, ⟨14, _⟩ => ⟨S320000, .i32⟩
  | .hbm, ⟨15, _⟩ => ⟨S340000, .i32⟩
  | .hbm, ⟨16, _⟩ => ⟨S80000x64, .f32⟩
  | .hbm, ⟨17, _⟩ => ⟨S80000x64, .f32⟩
  | .hbm, ⟨18, _⟩ => ⟨S4x20000x64, .f32⟩
  | .hbm, ⟨19, _⟩ => ⟨S_, .f32⟩
  | .hbm, ⟨20, _⟩ => ⟨S340000, .f32⟩
  | .hbm, ⟨21, _⟩ => ⟨S_, .f32⟩
  | .hbm, ⟨22, _⟩ => ⟨S20000, .f32⟩
  | .hbm, ⟨23, _⟩ => ⟨S340000x1, .i32⟩
  | .hbm, ⟨24, _⟩ => ⟨S20000, .f32⟩
  | .hbm, ⟨25, _⟩ => ⟨S_, .f32⟩
  | .hbm, ⟨26, _⟩ => ⟨S20000, .f32⟩
  | .hbm, ⟨27, _⟩ => ⟨S20000, .i1⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S_, .f32⟩
  | .hbm, ⟨32, _⟩ => ⟨S_, .f32⟩
  | .hbm, ⟨33, _⟩ => ⟨S20000, .f32⟩
  | .hbm, ⟨34, _⟩ => ⟨S20000, .f32⟩
  | .hbm, ⟨35, _⟩ => ⟨S_, .i32⟩
  | .hbm, ⟨36, _⟩ => ⟨S340000, .i32⟩
  | .hbm, ⟨37, _⟩ => ⟨S340000, .i1⟩
  | .hbm, ⟨38, _⟩ => ⟨S_, .i32⟩
  | .hbm, ⟨39, _⟩ => ⟨S340000, .i32⟩
  | .hbm, ⟨40, _⟩ => ⟨S340000, .i32⟩
  | .hbm, ⟨41, _⟩ => ⟨S340000, .i32⟩
  | .hbm, ⟨42, _⟩ => ⟨S340000x1, .i32⟩
  | .hbm, ⟨43, _⟩ => ⟨S340000, .f32⟩
  | .hbm, ⟨44, _⟩ => ⟨S_, .i32⟩
  | .hbm, ⟨45, _⟩ => ⟨S340000, .i32⟩
  | .hbm, ⟨46, _⟩ => ⟨S340000, .i1⟩
  | .hbm, ⟨47, _⟩ => ⟨S_, .i32⟩
  | .hbm, ⟨48, _⟩ => ⟨S340000, .i32⟩
  | .hbm, ⟨49, _⟩ => ⟨S340000, .i32⟩
  | .hbm, ⟨50, _⟩ => ⟨S340000, .i32⟩
  | .hbm, ⟨51, _⟩ => ⟨S340000x1, .i32⟩
  | .hbm, ⟨52, _⟩ => ⟨S340000, .f32⟩
  | .hbm, ⟨53, _⟩ => ⟨S340000, .f32⟩
  | .hbm, ⟨54, _⟩ => ⟨S_, .i32⟩
  | .hbm, ⟨55, _⟩ => ⟨S340000, .i32⟩
  | .hbm, ⟨56, _⟩ => ⟨S340000, .i1⟩
  | .hbm, ⟨57, _⟩ => ⟨S_, .i32⟩
  | .hbm, ⟨58, _⟩ => ⟨S340000, .i32⟩
  | .hbm, ⟨59, _⟩ => ⟨S340000, .i32⟩
  | .hbm, ⟨60, _⟩ => ⟨S340000, .i32⟩
  | .hbm, ⟨61, _⟩ => ⟨S340000x1, .i32⟩
  | .hbm, ⟨62, _⟩ => ⟨S4x340000x64, .f32⟩
  | .hbm, ⟨63, _⟩ => ⟨S1x340000x1, .f32⟩
  | .hbm, ⟨64, _⟩ => ⟨S4x340000x64, .f32⟩
  | .hbm, ⟨65, _⟩ => ⟨S4x340000x64, .f32⟩
  | .hbm, ⟨66, _⟩ => ⟨S340000x4x64, .f32⟩
  | .hbm, ⟨67, _⟩ => ⟨S_, .f32⟩
  | .hbm, ⟨68, _⟩ => ⟨S20000x4x64, .f32⟩
  | .hbm, ⟨69, _⟩ => ⟨S340000x1, .i32⟩
  | .hbm, ⟨70, _⟩ => ⟨S20000x4x64, .f32⟩
  | .hbm, ⟨71, _⟩ => ⟨S4x20000x64, .f32⟩
  | .hbm, ⟨72, _⟩ => ⟨S80000x64, .f32⟩
  | .hbm, ⟨73, _⟩ => ⟨S80000x128, .f32⟩
  | .hbm, ⟨74, _⟩ => ⟨S4x20000x128, .f32⟩
  | .local _ .vmem, ⟨0, _⟩ => ⟨S8000x64, .f32⟩
  | .local _ .vmem, ⟨1, _⟩ => ⟨S8000x64, .f32⟩
  | .local _ .vmem, ⟨2, _⟩ => ⟨S64x64, .f32⟩
  | .local _ .vmem, ⟨3, _⟩ => ⟨S8000x64, .f32⟩
  | .local _ .vmem, ⟨4, _⟩ => ⟨S8000x64, .f32⟩
  | .local _ .vmem, ⟨5, _⟩ => ⟨S4000x64, .f32⟩
  | .local _ .vmem, ⟨6, _⟩ => ⟨S4000x64, .f32⟩
  | .local _ .vmem, ⟨7, _⟩ => ⟨S64, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S128x128, .f32⟩
  | .local _ .vmem, ⟨13, _⟩ => ⟨S4000x128, .f32⟩
  | .local _ .vmem, ⟨14, _⟩ => ⟨S4000x128, .f32⟩
  | _, _ => ⟨S4x20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  shapeCasts_S4x20000x64_S80000x64 : S4x20000x64.ShapeCasts S80000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S80000x64_S4x20000x64 : S80000x64.ShapeCasts S4x20000x64
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000_S1x340000x1_1 : S340000.BroadcastsInDim S1x340000x1 (![1] : Fin 1 → Fin S1x340000x1.rank)
  bcast_S1x340000x1_S4x340000x64_0_1_2 : S1x340000x1.BroadcastsInDim S4x340000x64 (![0, 1, 2] : Fin 3 → Fin S4x340000x64.rank)
  transposes_S4x340000x64_S340000x4x64_1_0_2 : S4x340000x64.Transposes [1, 0, 2] S340000x4x64
  bcast_S_S20000x4x64 : S_.BroadcastsInDim S20000x4x64 (![] : Fin 0 → Fin S20000x4x64.rank)
  transposes_S20000x4x64_S4x20000x64_1_0_2 : S20000x4x64.Transposes [1, 0, 2] S4x20000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S128x128_S128x128_0_0 : ∀ a, (![0, 0] : Fin 2 → Nat) a + S128x128.size a ≤ S128x128.size a
  h_S128x128 : 0 < S128x128.numel
  concatenates_S4000x64_S4000x64_S4000x128_d1 : Shape.Concatenates [S4000x64, S4000x64] S4000x128 1
  inb_S4000x128_S4000x128_0_0 : ∀ a, (![0, 0] : Fin 2 → Nat) a + S4000x128.size a ≤ S4000x128.size a
  h_S4000x128 : 0 < S4000x128.numel
  shapeCasts_S80000x128_S4x20000x128 : S80000x128.ShapeCasts S4x20000x128
  dot_S8000x64_S64x64_S8000x64_1_1_0_0_n_n_wf : DotDims.WF S8000x64 S64x64 S8000x64 [1] [1] [0] [0] [] []
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S4x20000x64_S340000x1_S4x340000x64_02_1_n_n_1_1_4164_wf : GatherDims.WF S4x20000x64 S340000x1 S4x340000x64 [0, 2] [1] [] [1] [] 1 ![4, 1, 64]
  scatter_S20000x4x64_S340000x1_S340000x4x64_12_0_0_1_wf : ScatterDims.WF S20000x4x64 S340000x1 S340000x4x64 [1, 2] [0] [0] 1
  dot_S4000x64_S64x64_S4000x64_1_1_0_0_n_n_wf : DotDims.WF S4000x64 S64x64 S4000x64 [1] [1] [0] [0] [] []
  dot_S4000x128_S128x128_S4000x128_1_1_0_0_n_n_wf : DotDims.WF S4000x128 S128x128 S4000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S80000x64.size a
  hwx0_0 : ∀ i : grid0.Coords, EltTy.bits .f32 = 32 ∨ (Rect.block (s := S80000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S80000x64.size a
  hwx0_2 : ∀ i : grid0.Coords, EltTy.bits .f32 = 32 ∨ (Rect.block (s := S80000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S80000x64.size a
  hwx1_0 : ∀ i : grid1.Coords, EltTy.bits .f32 = 32 ∨ (Rect.block (s := S80000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S80000x128.size a
  hwx1_7 : ∀ i : grid1.Coords, EltTy.bits .f32 = 32 ∨ (Rect.block (s := S80000x128) S4000x128.size (cc1_transform_7 i) (hinb1_7 i)).WholeWords (EltTy.packing .f32)

variable [Facts₀]

def dot_S8000x64_S64x64_S8000x64_1_1_0_0_n_n : DotDims S8000x64 S64x64 S8000x64 where
  lhsContracting := [1]
  rhsContracting := [1]
  lhsNonContracting := [0]
  rhsNonContracting := [0]
  lhsBatch := []
  rhsBatch := []
  wf := dot_S8000x64_S64x64_S8000x64_1_1_0_0_n_n_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S4x20000x64_S340000x1_S4x340000x64_02_1_n_n_1_1_4164 : GatherDims S4x20000x64 S340000x1 S4x340000x64 where
  offsetDims := [0, 2]
  collapsedSliceDims := [1]
  operandBatchingDims := []
  startIndicesBatchingDims := []
  startIndexMap := [1]
  indexVectorDim := 1
  sliceSizes := ![4, 1, 64]
  wf := gather_S4x20000x64_S340000x1_S4x340000x64_02_1_n_n_1_1_4164_wf
def scatter_S20000x4x64_S340000x1_S340000x4x64_12_0_0_1 : ScatterDims S20000x4x64 S340000x1 S340000x4x64 where
  updateWindowDims := [1, 2]
  insertedWindowDims := [0]
  scatterDimsToOperandDims := [0]
  indexVectorDim := 1
  wf := scatter_S20000x4x64_S340000x1_S340000x4x64_12_0_0_1_wf
def dot_S4000x64_S64x64_S4000x64_1_1_0_0_n_n : DotDims S4000x64 S64x64 S4000x64 where
  lhsContracting := [1]
  rhsContracting := [1]
  lhsNonContracting := [0]
  rhsNonContracting := [0]
  lhsBatch := []
  rhsBatch := []
  wf := dot_S4000x64_S64x64_S4000x64_1_1_0_0_n_n_wf
def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf

abbrev win0_0 : Pipeline.Window sig grid0 :=
  Pipeline.Window.ofSpec (Memref.whole main_v7) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4x20000x64 : Shape := ⟨3, ![4, 20000, 64]⟩
abbrev S2x320000 : Shape := ⟨2, ![2, 320000]⟩
abbrev S64x64 : Shape := ⟨2, ![64, 64]⟩
abbrev S64 : Shape := ⟨1, ![64]⟩
abbrev S128x128 : Shape := ⟨2, ![128, 128]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S4x340000x64 : Shape := ⟨3, ![4, 340000, 64]⟩
abbrev S1x340000x1 : Shape := ⟨3, ![1, 340000, 1]⟩
abbrev S340000x4x64 : Shape := ⟨3, ![340000, 4, 64]⟩
abbrev S20000x4x64 : Shape := ⟨3, ![20000, 4, 64]⟩
abbrev S1x1x64 : Shape := ⟨3, ![1, 1, 64]⟩
abbrev S4x20000x128 : Shape := ⟨3, ![4, 20000, 128]⟩

abbrev nBuf : Space → Nat
  | .hbm => 90
  | .vmem => 0
  | .smem => 0
  | _ => 0

abbrev bufTy : (tb : Table) → Fin (tcTables nBuf tb) → BufTy
  | .hbm, ⟨0, _⟩ => ⟨S4x20000x64, .f32⟩
  | .hbm, ⟨1, _⟩ => ⟨S2x320000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S128x128, .f32⟩
  | .hbm, ⟨9, _⟩ => ⟨S20000, .i32⟩
  | .hbm, ⟨10, _⟩ => ⟨S1x320000, .i32⟩
  | .hbm, ⟨11, _⟩ => ⟨S320000, .i32⟩
  | .hbm, ⟨12, _⟩ => ⟨S340000, .i32⟩
  | .hbm, ⟨13, _⟩ => ⟨S1x320000, .i32⟩
  | .hbm, ⟨14, _⟩ => ⟨S320000, .i32⟩
  | .hbm, ⟨15, _⟩ => ⟨S340000, .i32⟩
  | .hbm, ⟨16, _⟩ => ⟨S4x20000x64, .f32⟩
  | .hbm, ⟨17, _⟩ => ⟨S_, .f32⟩
  | .hbm, ⟨18, _⟩ => ⟨S340000, .f32⟩
  | .hbm, ⟨19, _⟩ => ⟨S_, .f32⟩
  | .hbm, ⟨20, _⟩ => ⟨S20000, .f32⟩
  | .hbm, ⟨21, _⟩ => ⟨S340000x1, .i32⟩
  | .hbm, ⟨22, _⟩ => ⟨S20000, .f32⟩
  | .hbm, ⟨23, _⟩ => ⟨S_, .f32⟩
  | .hbm, ⟨24, _⟩ => ⟨S20000, .f32⟩
  | .hbm, ⟨25, _⟩ => ⟨S20000, .i1⟩
  | .hbm, ⟨26, _⟩ => ⟨S_, .f32⟩
  | .hbm, ⟨27, _⟩ => ⟨S20000, .f32⟩
  | .hbm, ⟨28, _⟩ => ⟨S20000, .f32⟩
  | .hbm, ⟨29, _⟩ => ⟨S_, .f32⟩
  | .hbm, ⟨30, _⟩ => ⟨S_, .f32⟩
  | .hbm, ⟨31, _⟩ => ⟨S20000, .f32⟩
  | .hbm, ⟨32, _⟩ => ⟨S20000, .f32⟩
  | .hbm, ⟨33, _⟩ => ⟨S_, .i32⟩
  | .hbm, ⟨34, _⟩ => ⟨S340000, .i32⟩
  | .hbm, ⟨35, _⟩ => ⟨S340000, .i1⟩
  | .hbm, ⟨36, _⟩ => ⟨S_, .i32⟩
  | .hbm, ⟨37, _⟩ => ⟨S340000, .i32⟩
  | .hbm, ⟨38, _⟩ => ⟨S340000, .i32⟩
  | .hbm, ⟨39, _⟩ => ⟨S340000, .i32⟩
  | .hbm, ⟨40, _⟩ => ⟨S340000x1, .i32⟩
  | .hbm, ⟨41, _⟩ => ⟨S340000, .f32⟩
  | .hbm, ⟨42, _⟩ => ⟨S_, .i32⟩
  | .hbm, ⟨43, _⟩ => ⟨S340000, .i32⟩
  | .hbm, ⟨44, _⟩ => ⟨S340000, .i1⟩
  | .hbm, ⟨45, _⟩ => ⟨S_, .i32⟩
  | .hbm, ⟨46, _⟩ => ⟨S340000, .i32⟩
  | .hbm, ⟨47, _⟩ => ⟨S340000, .i32⟩
  | .hbm, ⟨48, _⟩ => ⟨S340000, .i32⟩
  | .hbm, ⟨49, _⟩ => ⟨S340000x1, .i32⟩
  | .hbm, ⟨50, _⟩ => ⟨S340000, .f32⟩
  | .hbm, ⟨51, _⟩ => ⟨S340000, .f32⟩
  | .hbm, ⟨52, _⟩ => ⟨S_, .i32⟩
  | .hbm, ⟨53, _⟩ => ⟨S340000, .i32⟩
  | .hbm, ⟨54, _⟩ => ⟨S340000, .i1⟩
  | .hbm, ⟨55, _⟩ => ⟨S_, .i32⟩
  | .hbm, ⟨56, _⟩ => ⟨S340000, .i32⟩
  | .hbm, ⟨57, _⟩ => ⟨S340000, .i32⟩
  | .hbm, ⟨58, _⟩ => ⟨S340000, .i32⟩
  | .hbm, ⟨59, _⟩ => ⟨S340000x1, .i32⟩
  | .hbm, ⟨60, _⟩ => ⟨S4x340000x64, .f32⟩
  | .hbm, ⟨61, _⟩ => ⟨S1x340000x1, .f32⟩
  | .hbm, ⟨62, _⟩ => ⟨S4x340000x64, .f32⟩
  | .hbm, ⟨63, _⟩ => ⟨S4x340000x64, .f32⟩
  | .hbm, ⟨64, _⟩ => ⟨S340000x4x64, .f32⟩
  | .hbm, ⟨65, _⟩ => ⟨S_, .f32⟩
  | .hbm, ⟨66, _⟩ => ⟨S20000x4x64, .f32⟩
  | .hbm, ⟨67, _⟩ => ⟨S340000x1, .i32⟩
  | .hbm, ⟨68, _⟩ => ⟨S20000x4x64, .f32⟩
  | .hbm, ⟨69, _⟩ => ⟨S4x20000x64, .f32⟩
  | .hbm, ⟨70, _⟩ => ⟨S1x1x64, .f32⟩
  | .hbm, ⟨71, _⟩ => ⟨S4x20000x64, .f32⟩
  | .hbm, ⟨72, _⟩ => ⟨S4x20000x64, .f32⟩
  | .hbm, ⟨73, _⟩ => ⟨S4x20000x64, .f32⟩
  | .hbm, ⟨74, _⟩ => ⟨S4x20000x64, .f32⟩
  | .hbm, ⟨75, _⟩ => ⟨S_, .f32⟩
  | .hbm, ⟨76, _⟩ => ⟨S4x20000x64, .f32⟩
  | .hbm, ⟨77, _⟩ => ⟨S4x20000x64, .f32⟩
  | .hbm, ⟨78, _⟩ => ⟨S_, .f32⟩
  | .hbm, ⟨79, _⟩ => ⟨S4x20000x64, .f32⟩
  | .hbm, ⟨80, _⟩ => ⟨S4x20000x64, .f32⟩
  | .hbm, ⟨81, _⟩ => ⟨S4x20000x64, .f32⟩
  | .hbm, ⟨82, _⟩ => ⟨S4x20000x64, .f32⟩
  | .hbm, ⟨83, _⟩ => ⟨S4x20000x64, .f32⟩
  | .hbm, ⟨84, _⟩ => ⟨S4x20000x64, .f32⟩
  | .hbm, ⟨85, _⟩ => ⟨S4x20000x128, .f32⟩
  | .hbm, ⟨86, _⟩ => ⟨S4x20000x128, .f32⟩
  | .hbm, ⟨87, _⟩ => ⟨S_, .f32⟩
  | .hbm, ⟨88, _⟩ => ⟨S4x20000x128, .f32⟩
  | .hbm, ⟨89, _⟩ => ⟨S4x20000x128, .f32⟩
  | _, _ => ⟨S4x20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000_S1x340000x1_1 : S340000.BroadcastsInDim S1x340000x1 (![1] : Fin 1 → Fin S1x340000x1.rank)
  bcast_S1x340000x1_S4x340000x64_0_1_2 : S1x340000x1.BroadcastsInDim S4x340000x64 (![0, 1, 2] : Fin 3 → Fin S4x340000x64.rank)
  transposes_S4x340000x64_S340000x4x64_1_0_2 : S4x340000x64.Transposes [1, 0, 2] S340000x4x64
  bcast_S_S20000x4x64 : S_.BroadcastsInDim S20000x4x64 (![] : Fin 0 → Fin S20000x4x64.rank)
  transposes_S20000x4x64_S4x20000x64_1_0_2 : S20000x4x64.Transposes [1, 0, 2] S4x20000x64
  bcast_S64_S1x1x64_2 : S64.BroadcastsInDim S1x1x64 (![2] : Fin 1 → Fin S1x1x64.rank)
  bcast_S1x1x64_S4x20000x64_0_1_2 : S1x1x64.BroadcastsInDim S4x20000x64 (![0, 1, 2] : Fin 3 → Fin S4x20000x64.rank)
  bcast_S_S4x20000x64 : S_.BroadcastsInDim S4x20000x64 (![] : Fin 0 → Fin S4x20000x64.rank)
  concatenates_S4x20000x64_S4x20000x64_S4x20000x128_d2 : Shape.Concatenates [S4x20000x64, S4x20000x64] S4x20000x128 2
  bcast_S_S4x20000x128 : S_.BroadcastsInDim S4x20000x128 (![] : Fin 0 → Fin S4x20000x128.rank)
  dot_S4x20000x64_S64x64_S4x20000x64_2_1_01_0_n_n_wf : DotDims.WF S4x20000x64 S64x64 S4x20000x64 [2] [1] [0, 1] [0] [] []
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S4x20000x64_S340000x1_S4x340000x64_02_1_n_n_1_1_4164_wf : GatherDims.WF S4x20000x64 S340000x1 S4x340000x64 [0, 2] [1] [] [1] [] 1 ![4, 1, 64]
  scatter_S20000x4x64_S340000x1_S340000x4x64_12_0_0_1_wf : ScatterDims.WF S20000x4x64 S340000x1 S340000x4x64 [1, 2] [0] [0] 1
  dot_S4x20000x128_S128x128_S4x20000x128_2_1_01_0_n_n_wf : DotDims.WF S4x20000x128 S128x128 S4x20000x128 [2] [1] [0, 1] [0] [] []

variable [Facts₀]

def dot_S4x20000x64_S64x64_S4x20000x64_2_1_01_0_n_n : DotDims S4x20000x64 S64x64 S4x20000x64 where
  lhsContracting := [2]
  rhsContracting := [1]
  lhsNonContracting := [0, 1]
  rhsNonContracting := [0]
  lhsBatch := []
  rhsBatch := []
  wf := dot_S4x20000x64_S64x64_S4x20000x64_2_1_01_0_n_n_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S4x20000x64_S340000x1_S4x340000x64_02_1_n_n_1_1_4164 : GatherDims S4x20000x64 S340000x1 S4x340000x64 where
  offsetDims := [0, 2]
  collapsedSliceDims := [1]
  operandBatchingDims := []
  startIndicesBatchingDims := []
  startIndexMap := [1]
  indexVectorDim := 1
  sliceSizes := ![4, 1, 64]
  wf := gather_S4x20000x64_S340000x1_S4x340000x64_02_1_n_n_1_1_4164_wf
def scatter_S20000x4x64_S340000x1_S340000x4x64_12_0_0_1 : ScatterDims S20000x4x64 S340000x1 S340000x4x64 where
  updateWindowDims := [1, 2]
  insertedWindowDims := [0]
  scatterDimsToOperandDims := [0]
  indexVectorDim := 1
  wf := scatter_S20000x4x64_S340000x1_S340000x4x64_12_0_0_1_wf
def dot_S4x20000x128_S128x128_S4x20000x128_2_1_01_0_n_n : DotDims S4x20000x128 S128x128 S4x20000x128 where
  lhsContracting := [2]
  rhsContracting := [1]
  lhsNonContracting := [0, 1]
  rhsNonContracting := [0]
  lhsBatch := []
  rhsBatch := []
  wf := dot_S4x20000x128_S128x128_S4x20000x128_2_1_01_0_n_n_wf

class Facts : Prop extends Facts₀ where

variable [Facts]
-- ==== Proof.LibTransposedDot.lean ====
/-
  A matrix product whose right operand is contracted on its SECOND axis, read at coordinates.

  `DotDims.transposedRhs M K N` are the dimension numbers of an `M×K` by `N×K` product: both operands are contracted on
  their second axis, no batch axis: the left operand times the transpose of the right. At the ideal instance such a product,
  whether it is the kernel's `tpu.matmul` into a zero accumulator or the host's `dot_general`, is at the output index
  `(r, c)` the sum over `k : Fin K` of `A (r, k) * B (c, k)` on the extended reals.
-/
import Idealize.ShloMosaic.Lib.ValueIdx
import Idealize.ShloMosaic.PureOps.Ideal.Laws

noncomputable section

open scoped BigOperators

namespace Idealize.ShloMosaic.TransposedDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl j _).trans hk

/-- The right operand's index at output index `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl j _).trans hk

/-- The kernel's product into a zero accumulator, at an output index: the sum over the shared axis. -/
theorem matmul_zero_apply (prec : Option ContractPrecision) (A : FVec Ideal ⟨2, ![M, K]⟩ .f32) (B : FVec Ideal ⟨2, ![N, K]⟩ .f32)
    (j : (⟨2, ![M, N]⟩ : Shape).Idx) :
    FloatOps.matmul (DotDims.transposedRhs M K N) prec A B (constant ⟨2, ![M, N]⟩ .f32 0x00000000#32) j
      = ∑ k : Fin K, A (ix2 (j 0) k) * B (ix2 (j 1) k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![N, K]⟩ .f32) (j : (⟨2, ![M, N]⟩ : Shape).Idx) :
    FloatOps.dotGeneral (DotDims.transposedRhs M K N) prec sched A B j = ∑ k : Fin K, A (ix2 (j 0) k) * B (ix2 (j 1) k) := by
  rw [Ideal.dotGeneral_apply, ← Equiv.sum_comp (contrEquiv1 (DotDims.transposedRhs M K N) K rfl rfl).symm]
  refine Finset.sum_congr rfl fun k _ => ?_
  rw [lhsIdx_eq, rhsIdx_eq]
  rfl

end Idealize.ShloMosaic.TransposedDot

end
-- ==== Proof.LibTransposedDotAny.lean ====
/-
  A matrix product whose right operand is contracted on its SECOND axis, into a zero accumulator, read at coordinates at any
  two operand formats.

  At the ideal instance a change of float format is the identity, so the kernel's `tpu.matmul` of operands narrowed to
  another format (bf16, say) into a zero f32 accumulator is, at the output index `(r, c)`, the same sum over `k : Fin K` of
  `A (r, k) * B (c, k)` on the extended reals as the product of f32 operands. The dimension numbers are
  `DotDims.transposedRhs M K N`: an `M×K` by `N×K` product, both operands contracted on their second axis, no batch axis.
-/
import proofs.«123312_j50448685859377_1_alg».proof.Proof.LibTransposedDot

noncomputable section

open scoped BigOperators

namespace Idealize.ShloMosaic.TransposedDot

open Idealize.ShloMosaic Idealize.ShloMosaic.ValueIdx

variable (M K N : Nat)

/-- The kernel's product into a zero accumulator at any two operand formats, at an output index: the sum over the shared
    axis. -/
theorem matmul_zero_apply_any {φ₁ φ₂ : FTy} (prec : Option ContractPrecision) (A : FVec Ideal ⟨2, ![M, K]⟩ φ₁)
    (B : FVec Ideal ⟨2, ![N, K]⟩ φ₂) (j : (⟨2, ![M, N]⟩ : Shape).Idx) :
    FloatOps.matmul (DotDims.transposedRhs M K N) prec A B (constant ⟨2, ![M, N]⟩ .f32 0x00000000#32) j
      = ∑ k : Fin K, A (ix2 (j 0) k) * B (ix2 (j 1) k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]
  rfl

end Idealize.ShloMosaic.TransposedDot

end
-- ==== Proof.LibSideBySide.lean ====
/-
  Two arrays side by side, read at coordinates.

  Concatenating an `[n, a]` array and an `[n, b]` array along the column axis gives an `[n, c]` array, `c = a + b`, whose
  entry `(p, q)` is the left array's `(p, q)` when `q < a` and the right array's `(p, q - a)` otherwise.
-/
import Idealize.ShloMosaic.Lib.Pipeline.Value
import Idealize.ShloMosaic.Lib.ValueIdx

noncomputable section

namespace Idealize.ShloMosaic.SideBySide

open Idealize.ShloMosaic Idealize.ShloMosaic.ValueIdx

variable {α : Type} {n a b c : Nat}

/-- A column of the left part reads the left array. -/
theorem apply_left (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : q.val < a) :
    concatenate ⟨2, ![n, c]⟩ 1 [⟨⟨2, ![n, a]⟩, A⟩, ⟨⟨2, ![n, b]⟩, B⟩] h (ix2 p q) = A (ix2 p ⟨q.val, hq⟩) :=
  concatenate_pair_apply_left (1 : Fin 2) A B h (ix2 p q) rfl (ix2 p ⟨q.val, hq⟩) (fun ax => by
    match ax with
    | ⟨0, _⟩ => rfl
    | ⟨1, _⟩ => rfl)

/-- A column of the right part reads the right array, the left part's width less. -/
theorem apply_right (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : a ≤ q.val)
    (hb : q.val - a < b) :
    concatenate ⟨2, ![n, c]⟩ 1 [⟨⟨2, ![n, a]⟩, A⟩, ⟨⟨2, ![n, b]⟩, B⟩] h (ix2 p q) = B (ix2 p ⟨q.val - a, hb⟩) :=
  concatenate_pair_apply_right (1 : Fin 2) A B h (ix2 p q) rfl rfl (ix2 p ⟨q.val - a, hb⟩) (fun ax hax => by
    match ax with
    | ⟨0, _⟩ => rfl
    | ⟨1, _⟩ => exact absurd rfl hax) (by
    show (q.val - a) + a = q.val
    omega)

end Idealize.ShloMosaic.SideBySide

end
-- ==== Proof.Head.lean ====
/-
  The head of the network, one node at a time.

  After the graph aggregation every node `(b, n)` carries a row `a` of 64 extended reals. The head adds the bias, applies the
  logistic function, sends the result through two branches of two dense layers each (`up1` then `up2`; `lo1` then `lo2`),
  lays the two 64-vectors side by side, applies a last dense layer of width 128 and clips at zero. No dense layer has a
  bias, and each one multiplies by the TRANSPOSE of its weight matrix: entry `o` of the image is the inner product of the
  row with row `o` of the matrix. Nothing here mixes two nodes, so the whole head is one function of a row.
-/
import Idealize.ShloMosaic.PureOps.Ideal
import Idealize.ShloMosaic.Lib.ValueIdx

noncomputable section

open scoped BigOperators

namespace Cert.Gcn

open Idealize.ShloMosaic

/-- A dense layer without bias: entry `o` is the inner product of the row with row `o` of the weight matrix. -/
def dense {K N : ℕ} (w : Fin N → Fin K → EReal) (row : Fin K → EReal) : Fin N → EReal :=
  fun o => ∑ k : Fin K, row k * w o k

/-- The bias added and the logistic function applied, entry by entry. -/
def gate (bias row : Fin 64 → EReal) : Fin 64 → EReal :=
  fun k => Ideal.logistic (row k + bias k)

/-- Two 64-vectors side by side. -/
def join (p q : Fin 64 → EReal) : Fin 128 → EReal :=
  fun j => if h : j.val < 64 then p ⟨j.val, h⟩ else q ⟨j.val - 64, by have := j.isLt; omega⟩

/-- The head: gate, two branches of two dense layers, the join, the last layer, the clip at zero (the zero written as the
    f32 word both programs write). -/
def head (bias : Fin 64 → EReal) (up1 up2 lo1 lo2 : Fin 64 → Fin 64 → EReal) (last : Fin 128 → Fin 128 → EReal)
    (row : Fin 64 → EReal) : Fin 128 → EReal :=
  fun j => max (dense last (join (dense up2 (dense up1 (gate bias row))) (dense lo2 (dense lo1 (gate bias row)))) j)
    (Ideal.ofBits .f32 0x00000000#32)

theorem join_left (p q : Fin 64 → EReal) (j : Fin 128) (h : j.val < 64) : join p q j = p ⟨j.val, h⟩ := dif_pos h

theorem join_right (p q : Fin 64 → EReal) (j : Fin 128) (h : 64 ≤ j.val) (hb : j.val - 64 < 64) :
    join p q j = q ⟨j.val - 64, hb⟩ := dif_neg (Nat.not_lt.mpr h)

end Cert.Gcn

end
-- ==== Proof.KernelRows.lean ====
/-
  What the two kernel bodies compute, read at one entry of their output block.

  The projection kernel's block is, at `(p, o)`, the inner product of row `p` of its input block with row `o` of the weight
  matrix. The head kernel's block is, at `(p, j)`, entry `j` of the head (`Cert.Gcn.head`) of row `p` of its input block.
  The narrowings to bf16 in front of every product are the identity on the extended reals, a product into a zero
  accumulator is the plain sum of products, and the bias is one row repeated down the block.
-/
import proofs.«123312_j50448685859377_1_alg».proof.Proof.Gen.KernelIdeal.Skeleton
import proofs.«123312_j50448685859377_1_alg».proof.Proof.LibTransposedDotAny
import proofs.«123312_j50448685859377_1_alg».proof.Proof.LibSideBySide
import proofs.«123312_j50448685859377_1_alg».proof.Proof.Head
import Idealize.ShloMosaic.Lib.ValueLayout
import Idealize.ShloMosaic.Lib.Pipeline.Value

noncomputable section

open scoped BigOperators

namespace Cert.KernelIdeal.Rows

open Idealize.ShloMosaic Idealize.ShloMosaic.ValueIdx Cert.KernelIdeal Cert.KernelIdeal.Gen Cert.Gcn

/-- A 64-vector as a function of its one coordinate. -/
abbrev vec64 (x : Vec Ideal S64 .f32) : Fin 64 → EReal := fun k => x (ix1 k)
/-- A 64×64 matrix as a function of its two coordinates. -/
abbrev mat64 (x : Vec Ideal S64x64 .f32) : Fin 64 → Fin 64 → EReal := fun o k => x (ix2 o k)
/-- A 128×128 matrix as a function of its two coordinates. -/
abbrev mat128 (x : Vec Ideal S128x128 .f32) : Fin 128 → Fin 128 → EReal := fun o k => x (ix2 o k)

/-- The projection kernel's product (operands of any float format) into a zero accumulator, at `(p, o)`. -/
theorem proj_matmul {φ₁ φ₂ : FTy} (A : FVec Ideal S8000x64 φ₁) (B : FVec Ideal S64x64 φ₂) (p : Fin 8000) (o : Fin 64) :
    matmul dot_S8000x64_S64x64_S8000x64_1_1_0_0_n_n none A B (constant S8000x64 .f32 0x00000000#32) (ix2 p o)
      = ∑ k : Fin 64, A (ix2 p k) * B (ix2 o k) :=
  TransposedDot.matmul_zero_apply_any 8000 64 64 none A B (ix2 p o)

/-- The projection kernel's block at `(p, o)`: row `p` of the input block against row `o` of the weights. -/
theorem proj_pay (x0 : Vec Ideal S8000x64 .f32) (x1 : Vec Ideal S64x64 .f32) (p : Fin 8000) (o : Fin 64) :
    k0_pay1 (F := Ideal) x0 x1 (ix2 p o) = ∑ k : Fin 64, x0 (ix2 p k) * x1 (ix2 o k) := by
  unfold k0_pay1
  rw [proj_matmul, shapeCast_self]
  rfl

/-- A 4000×64 by 64×64 product of the head kernel (operands of any float format) into a zero accumulator, at `(p, o)`:
    a dense layer applied to row `p`. -/
theorem head_matmul64 {φ₁ φ₂ : FTy} (A : FVec Ideal S4000x64 φ₁) (B : FVec Ideal S64x64 φ₂) (p : Fin 4000) (o : Fin 64) :
    matmul dot_S4000x64_S64x64_S4000x64_1_1_0_0_n_n none A B (constant S4000x64 .f32 0x00000000#32) (ix2 p o)
      = dense (fun o k => B (ix2 o k)) (fun k => A (ix2 p k)) o :=
  TransposedDot.matmul_zero_apply_any 4000 64 64 none A B (ix2 p o)

/-- The head kernel's last product, 4000×128 by 128×128, at `(p, j)`. -/
theorem head_matmul128 {φ₁ φ₂ : FTy} (A : FVec Ideal S4000x128 φ₁) (B : FVec Ideal S128x128 φ₂) (p : Fin 4000) (j : Fin 128) :
    matmul dot_S4000x128_S128x128_S4000x128_1_1_0_0_n_n none A B (constant S4000x128 .f32 0x00000000#32) (ix2 p j)
      = dense (fun o k => B (ix2 o k)) (fun k => A (ix2 p k)) j :=
  TransposedDot.matmul_zero_apply_any 4000 128 128 none A B (ix2 p j)

/-- The gated row: the input block's row plus the bias (one row repeated down the block), through the logistic function. -/
theorem gate_at (x0 : Vec Ideal S4000x64 .f32) (x1 : Vec Ideal S64 .f32) (p : Fin 4000) (k : Fin 64) :
    logistic (F := Ideal) (φ := .f32) (addf (shapeCast S4000x64 x0 shapeCasts_S4000x64_S4000x64 : FVec Ideal S4000x64 .f32)
        (broadcastTo S4000x64 (shapeCast S1x64 x1 shapeCasts_S64_S1x64 : FVec Ideal S1x64 .f32) broadcasts_S1x64_S4000x64)) (ix2 p k)
      = gate (vec64 x1) (fun k => x0 (ix2 p k)) k := by
  show FloatOps.logistic (F := Ideal) (φ := .f32) (addf (F := Ideal) (φ := .f32) (shapeCast S4000x64 x0 shapeCasts_S4000x64_S4000x64 : FVec Ideal S4000x64 .f32)
        (broadcastTo S4000x64 (shapeCast S1x64 x1 shapeCasts_S64_S1x64 : FVec Ideal S1x64 .f32) broadcasts_S1x64_S4000x64) (ix2 p k)) = _
  rw [addf_apply, shapeCast_self, broadcastTo_1b_ab_apply, shapeCast_a_1a_apply]
  rfl

/-- Two 4000×64 blocks side by side, at `(p, j)`: the join of their rows `p`. -/
theorem join_at (U L : FVec Ideal S4000x64 .f32) (p : Fin 4000) (j : Fin 128) :
    concatenate S4000x128 1 [⟨S4000x64, U⟩, ⟨S4000x64, L⟩] concatenates_S4000x64_S4000x64_S4000x128_d1 (ix2 p j)
      = join (fun k => U (ix2 p k)) (fun k => L (ix2 p k)) j := by
  by_cases h : j.val < 64
  · rw [join_left _ _ j h]
    exact SideBySide.apply_left U L concatenates_S4000x64_S4000x64_S4000x128_d1 p j h
  · have h64 : 64 ≤ j.val := Nat.le_of_not_lt h
    have hb : j.val - 64 < 64 := by have := j.isLt; omega
    rw [join_right _ _ j h64 hb]
    exact SideBySide.apply_right U L concatenates_S4000x64_S4000x64_S4000x128_d1 p j h64 hb

/-- The head kernel's block at `(p, j)`: entry `j` of the head of row `p` of the input block. -/
theorem head_pay (x0 : Vec Ideal S4000x64 .f32) (x1 : Vec Ideal S64 .f32) (x2 x3 x4 x5 : Vec Ideal S64x64 .f32)
    (x6 : Vec Ideal S128x128 .f32) (p : Fin 4000) (j : Fin 128) :
    k1_pay1 (F := Ideal) x0 x1 x2 x3 x4 x5 x6 (ix2 p j)
      = head (vec64 x1) (mat64 x2) (mat64 x3) (mat64 x4) (mat64 x5) (mat128 x6) (fun k => x0 (ix2 p k)) j := by
  unfold k1_pay1 head
  rw [maximumf_apply, head_matmul128]
  refine congrArg₂ max (congrFun (congrArg (dense _) (funext fun q => ?_)) j) rfl
  rw [truncf_apply, join_at]
  refine congrFun (congrArg₂ join (funext fun k => ?_) (funext fun k => ?_)) q
  · rw [head_matmul64]
    refine congrFun (congrArg (dense _) (funext fun k' => ?_)) k
    rw [truncf_apply, head_matmul64]
    refine congrFun (congrArg (dense _) (funext fun k'' => ?_)) k'
    rw [truncf_apply, gate_at]
  · rw [head_matmul64]
    refine congrFun (congrArg (dense _) (funext fun k' => ?_)) k
    rw [truncf_apply, head_matmul64]
    refine congrFun (congrArg (dense _) (funext fun k'' => ?_)) k'
    rw [truncf_apply, gate_at]

end Cert.KernelIdeal.Rows

end
-- ==== Proof.KernelArrays.lean ====
/-
  From blocks to arrays: what each kernel region leaves in its output array, as one function of the arrays it finds.

  The projection region walks its 80000 rows in 10 blocks of 8000; block `t` of the output is the projection of block `t`
  of the input by the whole 64×64 weight matrix, so the output array is, at `(r, o)`, the inner product of row `r` of the
  input array with row `o` of the weights. The head region walks the same rows in 20 blocks of 4000 with every weight
  and the bias whole at each point, so its output array is, at `(r, j)`, entry `j` of the head of row `r`. In both
  regions the output blocks tile the array: row `r` lies in block `r / 8000` (respectively `r / 4000`).
-/
import proofs.«123312_j50448685859377_1_alg».proof.Proof.Gen.KernelIdeal.Frame
import proofs.«123312_j50448685859377_1_alg».proof.Proof.KernelRows

set_option maxRecDepth 16384

noncomputable section

open scoped BigOperators

namespace Cert.KernelIdeal.Arrays

open Idealize.ShloMosaic Idealize.ShloMosaic.TcCoe Idealize.ShloMosaic.ValueIdx Idealize.SL.Sem
open Cert.KernelIdeal Cert.KernelIdeal.Gen Cert.KernelIdeal.Rows Cert.Gcn
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The projection region -/

/-- The rows the projection region finds. -/
abbrev rows0 (c : Dev nD) : S80000x64.Idx → EReal := V c main_v7
/-- The weights the projection region finds. -/
abbrev weights0 (c : Dev nD) : S64x64.Idx → EReal := V c main_arg2

/-- Every row of `X` against every row of `Wt`. -/
def projRows (X : S80000x64.Idx → EReal) (Wt : S64x64.Idx → EReal) : S80000x64.Idx → EReal :=
  fun i => ∑ k : Fin 64, X (ix2 (i 0) k) * Wt (ix2 (i 1) k)

/-- The index maps over the grid: the row blocks of input and output move with the point, everything else stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the projected rows. -/
theorem flushed0 (c : Dev nD) (t : Fin cfg0.N) :
    (dat0 V c).flushed 2 t
      = ((cfg0.win 2).blk t).view.read (Elt Ideal) (projRows (V c main_v7) (V c main_arg2)) := by
  show (cfg0.win 2).cut (grid0.coords t) ((dat0 V c).after 2 t) = _
  rw [after0_2]
  unfold out0_2
  rw [View.canon_unit_zero hz2]
  simp only [View.ld_unit_zero (S := S8000x64) hz2, View.ld_unit_zero (S := S64x64) hz2]
  obtain ⟨e0, e1, e2, e3, e4, e5⟩ := idx0 t
  funext j
  show k0_pay1 (F := Ideal) (iblk0 V c 0 t) (iblk0 V c 1 t) j
    = projRows (V c main_v7) (V c main_arg2) (((cfg0.win 2).blk t).view.emb j)
  refine (congrArg (k0_pay1 (F := Ideal) (iblk0 V c 0 t) (iblk0 V c 1 t)) (eq_ix2 j)).trans ?_
  refine (proj_pay (iblk0 V c 0 t) (iblk0 V c 1 t) (j 0) (j 1)).trans ?_
  refine Finset.sum_congr rfl fun k _ => ?_
  show rows0 V c (((cfg0.win 0).blk t).view.emb (ix2 (j 0) k)) * weights0 V c (((cfg0.win 1).blk t).view.emb (ix2 (j 1) k))
    = rows0 V c (ix2 ((((cfg0.win 2).blk t).view.emb j) 0) k) * weights0 V c (ix2 ((((cfg0.win 2).blk t).view.emb j) 1) k)
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 64 + 1 * k.val = k.val; omega
  have h1 : ((cfg0.win 1).blk t).view.emb (ix2 (j 1) k) = ix2 ((((cfg0.win 2).blk t).view.emb j) 1) k := by
    funext a; apply Fin.ext
    match a with
    | ⟨0, _⟩ => show win0_1.index t (0 : Fin 2) * 64 + 1 * (j 1).val = win0_2.index t (1 : Fin 2) * 64 + 1 * (j 1).val; omega
    | ⟨1, _⟩ => show win0_1.index t (1 : Fin 2) * 64 + 1 * k.val = k.val; omega
  exact congrArg₂ (fun a b => rows0 V c a * weights0 V c b) h0 h1

/-- An index is in point `t`'s output block iff each coordinate is in the block's range. -/
theorem mem_blk0 (t : Fin cfg0.N) (i : S80000x64.Idx) :
    i ∈ ((cfg0.win 2).blk t).view.set ↔ ∀ a : Fin 2, win0_2.index t a * S8000x64.size a ≤ (i a).val
      ∧ (i a).val < win0_2.index t a * S8000x64.size a + S8000x64.size a := by
  show i ∈ ((View.whole main_v8).slice (win0_2.rect t)).set ↔ _
  rw [View.set_slice_whole, Rect.mem_set_unit]
  exact Iff.rfl

/-- Row `r` lies in the block of point `r / 8000`. -/
theorem cover0 (i : S80000x64.Idx) :
    ∃ t : Fin cfg0.N, (cfg0.win 2).flush t = true ∧ i ∈ ((cfg0.win 2).blk t).view.set := by
  have hi0 : (i 0).val < 80000 := (i 0).isLt
  have hi1 : (i 1).val < 64 := (i 1).isLt
  have ht : (i 0).val / 8000 < cfg0.N := by show _ < grid0.N; rw [N_0]; omega
  obtain ⟨-, -, -, -, e4, e5⟩ := idx0 ⟨(i 0).val / 8000, ht⟩
  have e4' : win0_2.index ⟨(i 0).val / 8000, ht⟩ (0 : Fin 2) = (i 0).val / 8000 := e4
  refine ⟨⟨(i 0).val / 8000, ht⟩, flush0_2 _, ?_⟩
  rw [mem_blk0]
  intro a
  match a with
  | ⟨0, _⟩ =>
    show win0_2.index ⟨(i 0).val / 8000, ht⟩ (0 : Fin 2) * 8000 ≤ (i 0).val
      ∧ (i 0).val < win0_2.index ⟨(i 0).val / 8000, ht⟩ (0 : Fin 2) * 8000 + 8000
    omega
  | ⟨1, _⟩ =>
    show win0_2.index ⟨(i 0).val / 8000, ht⟩ (1 : Fin 2) * 64 ≤ (i 1).val
      ∧ (i 1).val < win0_2.index ⟨(i 0).val / 8000, ht⟩ (1 : Fin 2) * 64 + 64
    omega

/-- The projection region's output array: the projected rows of its input array. -/
theorem arr0 (c : Dev nD) : (dat0 V c).arrAt 2 cfg0.N = projRows (V c main_v7) (V c main_arg2) :=
  (dat0 V c).arrAt_eq_of_cover 2 _ (fun t _ => flushed0 V c t) cover0

/-! ## The head region -/

/-- The head of every row of `A`. -/
def headRows (A : S80000x64.Idx → EReal) (b : S64.Idx → EReal) (u1 u2 l1 l2 : S64x64.Idx → EReal)
    (la : S128x128.Idx → EReal) : S80000x128.Idx → EReal :=
  fun i => head (fun k => b (ix1 k)) (fun o k => u1 (ix2 o k)) (fun o k => u2 (ix2 o k)) (fun o k => l1 (ix2 o k))
    (fun o k => l2 (ix2 o k)) (fun o k => la (ix2 o k)) (fun k => A (ix2 (i 0) k)) (i 1)

/-- The index maps over the grid: the row blocks of input and output move with the point, the bias and the weights stay. -/
theorem idx1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What point `t` writes back is block `t` of the heads of the rows. -/
theorem flushed1 (c : Dev nD) (t : Fin cfg1.N) :
    (dat1 V c).flushed 7 t
      = ((cfg1.win 7).blk t).view.read (Elt Ideal)
          (headRows (V c main_v49) (V c main_arg3) (V c main_arg4) (V c main_arg5) (V c main_arg6) (V c main_arg7) (V c main_arg8)) := by
  show (cfg1.win 7).cut (grid1.coords t) ((dat1 V c).after 7 t) = _
  rw [after1_7]
  unfold out1_7
  rw [View.canon_unit_zero hz2]
  simp only [View.ld_unit_zero (S := S4000x64) hz2, View.ld_unit_zero (S := S64x64) hz2,
    View.ld_unit_zero (S := S128x128) hz2, View.ld_unit_zero (S := S64) hz1]
  obtain ⟨e00, e01, e1, e20, e21, e30, e31, e40, e41, e50, e51, e60, e61, e70, e71⟩ := idx1 t
  funext j
  show k1_pay1 (F := Ideal) (iblk1 V c 0 t) (iblk1 V c 1 t) (iblk1 V c 2 t) (iblk1 V c 3 t) (iblk1 V c 4 t) (iblk1 V c 5 t) (iblk1 V c 6 t) j
    = headRows (V c main_v49) (V c main_arg3) (V c main_arg4) (V c main_arg5) (V c main_arg6) (V c main_arg7) (V c main_arg8)
        (((cfg1.win 7).blk t).view.emb j)
  refine (congrArg (k1_pay1 (F := Ideal) (iblk1 V c 0 t) (iblk1 V c 1 t) (iblk1 V c 2 t) (iblk1 V c 3 t) (iblk1 V c 4 t) (iblk1 V c 5 t) (iblk1 V c 6 t)) (eq_ix2 j)).trans ?_
  refine (head_pay (iblk1 V c 0 t) (iblk1 V c 1 t) (iblk1 V c 2 t) (iblk1 V c 3 t) (iblk1 V c 4 t) (iblk1 V c 5 t) (iblk1 V c 6 t) (j 0) (j 1)).trans ?_
  have hb : vec64 (iblk1 V c 1 t) = fun k => V c main_arg3 (ix1 k) := funext fun k => by
    show V c main_arg3 (((cfg1.win 1).blk t).view.emb (ix1 k)) = V c main_arg3 (ix1 k)
    refine congrArg (V c main_arg3) (funext fun a => Fin.ext ?_)
    match a with
    | ⟨0, _⟩ => show win1_1.index t (0 : Fin 1) * 64 + 1 * k.val = k.val; omega
  have h2 : mat64 (iblk1 V c 2 t) = fun o k => V c main_arg4 (ix2 o k) := funext fun o => funext fun k => by
    show V c main_arg4 (((cfg1.win 2).blk t).view.emb (ix2 o k)) = V c main_arg4 (ix2 o k)
    refine congrArg (V c main_arg4) (funext fun a => Fin.ext ?_)
    match a with
    | ⟨0, _⟩ => show win1_2.index t (0 : Fin 2) * 64 + 1 * o.val = o.val; omega
    | ⟨1, _⟩ => show win1_2.index t (1 : Fin 2) * 64 + 1 * k.val = k.val; omega
  have h3 : mat64 (iblk1 V c 3 t) = fun o k => V c main_arg5 (ix2 o k) := funext fun o => funext fun k => by
    show V c main_arg5 (((cfg1.win 3).blk t).view.emb (ix2 o k)) = V c main_arg5 (ix2 o k)
    refine congrArg (V c main_arg5) (funext fun a => Fin.ext ?_)
    match a with
    | ⟨0, _⟩ => show win1_3.index t (0 : Fin 2) * 64 + 1 * o.val = o.val; omega
    | ⟨1, _⟩ => show win1_3.index t (1 : Fin 2) * 64 + 1 * k.val = k.val; omega
  have h4 : mat64 (iblk1 V c 4 t) = fun o k => V c main_arg6 (ix2 o k) := funext fun o => funext fun k => by
    show V c main_arg6 (((cfg1.win 4).blk t).view.emb (ix2 o k)) = V c main_arg6 (ix2 o k)
    refine congrArg (V c main_arg6) (funext fun a => Fin.ext ?_)
    match a with
    | ⟨0, _⟩ => show win1_4.index t (0 : Fin 2) * 64 + 1 * o.val = o.val; omega
    | ⟨1, _⟩ => show win1_4.index t (1 : Fin 2) * 64 + 1 * k.val = k.val; omega
  have h5 : mat64 (iblk1 V c 5 t) = fun o k => V c main_arg7 (ix2 o k) := funext fun o => funext fun k => by
    show V c main_arg7 (((cfg1.win 5).blk t).view.emb (ix2 o k)) = V c main_arg7 (ix2 o k)
    refine congrArg (V c main_arg7) (funext fun a => Fin.ext ?_)
    match a with
    | ⟨0, _⟩ => show win1_5.index t (0 : Fin 2) * 64 + 1 * o.val = o.val; omega
    | ⟨1, _⟩ => show win1_5.index t (1 : Fin 2) * 64 + 1 * k.val = k.val; omega
  have h6 : mat128 (iblk1 V c 6 t) = fun o k => V c main_arg8 (ix2 o k) := funext fun o => funext fun k => by
    show V c main_arg8 (((cfg1.win 6).blk t).view.emb (ix2 o k)) = V c main_arg8 (ix2 o k)
    refine congrArg (V c main_arg8) (funext fun a => Fin.ext ?_)
    match a with
    | ⟨0, _⟩ => show win1_6.index t (0 : Fin 2) * 128 + 1 * o.val = o.val; omega
    | ⟨1, _⟩ => show win1_6.index t (1 : Fin 2) * 128 + 1 * k.val = k.val; omega
  have hrow : (fun k : Fin 64 => iblk1 V c 0 t (ix2 (j 0) k))
      = fun k => V c main_v49 (ix2 ((((cfg1.win 7).blk t).view.emb j) 0) k) := funext fun k => by
    show V c main_v49 (((cfg1.win 0).blk t).view.emb (ix2 (j 0) k)) = V c main_v49 (ix2 ((((cfg1.win 7).blk t).view.emb j) 0) k)
    refine congrArg (V c main_v49) (funext fun a => Fin.ext ?_)
    match a with
    | ⟨0, _⟩ => show win1_0.index t (0 : Fin 2) * 4000 + 1 * (j 0).val = win1_7.index t (0 : Fin 2) * 4000 + 1 * (j 0).val; omega
    | ⟨1, _⟩ => show win1_0.index t (1 : Fin 2) * 64 + 1 * k.val = k.val; omega
  have hcol : j 1 = (((cfg1.win 7).blk t).view.emb j) 1 := Fin.ext (by
    show (j 1).val = win1_7.index t (1 : Fin 2) * 128 + 1 * (j 1).val; omega)
  rw [hb, h2, h3, h4, h5, h6, hrow]
  exact congrArg _ hcol

/-- An index is in point `t`'s output block iff each coordinate is in the block's range. -/
theorem mem_blk1 (t : Fin cfg1.N) (i : S80000x128.Idx) :
    i ∈ ((cfg1.win 7).blk t).view.set ↔ ∀ a : Fin 2, win1_7.index t a * S4000x128.size a ≤ (i a).val
      ∧ (i a).val < win1_7.index t a * S4000x128.size a + S4000x128.size a := by
  show i ∈ ((View.whole main_v50).slice (win1_7.rect t)).set ↔ _
  rw [View.set_slice_whole, Rect.mem_set_unit]
  exact Iff.rfl

/-- Row `r` lies in the block of point `r / 4000`. -/
theorem cover1 (i : S80000x128.Idx) :
    ∃ t : Fin cfg1.N, (cfg1.win 7).flush t = true ∧ i ∈ ((cfg1.win 7).blk t).view.set := by
  have hi0 : (i 0).val < 80000 := (i 0).isLt
  have hi1 : (i 1).val < 128 := (i 1).isLt
  have ht : (i 0).val / 4000 < cfg1.N := by show _ < grid1.N; rw [N_1]; omega
  obtain ⟨-, -, -, -, -, -, -, -, -, -, -, -, -, e70, e71⟩ := idx1 ⟨(i 0).val / 4000, ht⟩
  have e70' : win1_7.index ⟨(i 0).val / 4000, ht⟩ (0 : Fin 2) = (i 0).val / 4000 := e70
  refine ⟨⟨(i 0).val / 4000, ht⟩, flush1_7 _, ?_⟩
  rw [mem_blk1]
  intro a
  match a with
  | ⟨0, _⟩ =>
    show win1_7.index ⟨(i 0).val / 4000, ht⟩ (0 : Fin 2) * 4000 ≤ (i 0).val
      ∧ (i 0).val < win1_7.index ⟨(i 0).val / 4000, ht⟩ (0 : Fin 2) * 4000 + 4000
    omega
  | ⟨1, _⟩ =>
    show win1_7.index ⟨(i 0).val / 4000, ht⟩ (1 : Fin 2) * 128 ≤ (i 1).val
      ∧ (i 1).val < win1_7.index ⟨(i 0).val / 4000, ht⟩ (1 : Fin 2) * 128 + 128
    omega

/-- The head region's output array: the heads of the rows of its input array. -/
theorem arr1 (c : Dev nD) : (dat1 V c).arrAt 7 cfg1.N
    = headRows (V c main_v49) (V c main_arg3) (V c main_arg4) (V c main_arg5) (V c main_arg6) (V c main_arg7) (V c main_arg8) :=
  (dat1 V c).arrAt_eq_of_cover 7 _ (fun t _ => flushed1 V c t) cover1

end Cert.KernelIdeal.Arrays

end
-- ==== Proof.RefSplit.lean ====
/-
  The reference, cut in three: the projection, the graph aggregation, the head.

  The reference projects every node's 64 features by the transpose of `lin_w`, aggregates over the graph (degrees of the
  target nodes, the symmetric normalisation `deg^(-1/2)` at both ends of an edge, a gather of the source rows, a
  scatter-add into the target rows), and applies the head node by node. The aggregation is written here ONCE as a function
  `mid` of the projected features and the two edge-end lists; it is never opened: the kernel program applies the very same
  operations to its own projected features. The projection and the head are read at an index: the projection is, at
  `(b, n, o)`, the inner product of node `(b, n)`'s features with row `o` of the weights, and the result is, at `(b, n, j)`,
  entry `j` of `Cert.Gcn.head` of the aggregated row of node `(b, n)`. The host spells the logistic function as
  `1 / (1 + exp (-x))`, which is its definition on the extended reals.
-/
import proofs.«123312_j50448685859377_1_alg».proof.Proof.RefRead
import proofs.«123312_j50448685859377_1_alg».proof.Proof.Head
import Idealize.ShloMosaic.Lib.IdealHost
import Idealize.ShloMosaic.Lib.Pipeline.Value

noncomputable section

open scoped BigOperators

namespace Cert.ReferenceIdeal.Split

open Cert.ReferenceIdeal Cert.ReferenceIdeal.Gen Cert.ReferenceIdeal.PRead Idealize.ShloMosaic Idealize.ShloMosaic.TcCoe
open Idealize.ShloMosaic.ValueIdx Cert.Gcn

/-! ## The graph aggregation, at any float family -/

section Aggregation

variable {F : FTy → Type} [FloatOps F]

/-- An edge-end list as gather indices: a negative entry counted from the end (20000 added), then stood up as a column. -/
def wrapIdx (v : (⟨S340000, .i32⟩ : BufTy).Contents (Elt F)) : (⟨S340000x1, .i32⟩ : BufTy).Contents (Elt F) :=
  broadcastInDim S340000x1 ![0] bcast_S340000_S340000x1_0
    (select (cmpi .slt v (broadcastInDim S340000 ![] bcast_S_S340000 (constantI S_ 32 0#32)))
      (addi v (broadcastInDim S340000 ![] bcast_S_S340000 (constantI S_ 32 20000#32))) v)

/-- The in-degree of every node: ones scatter-added at the targets. -/
def deg (col : (⟨S340000, .i32⟩ : BufTy).Contents (Elt F)) : (⟨S20000, .f32⟩ : BufTy).Contents (Elt F) :=
  Host.scatterAdd scatter_S20000_S340000x1_S340000_n_0_0_1
    (broadcastInDim S20000 ![] bcast_S_S20000 (constant S_ .f32 0x00000000#32))
    (broadcastInDim S340000x1 ![0] bcast_S340000_S340000x1_0 col)
    (broadcastInDim S340000 ![] bcast_S_S340000 (constant S_ .f32 0x3F800000#32))

/-- `deg ^ (-1/2)` where the degree is positive, zero elsewhere. -/
def dis (col : (⟨S340000, .i32⟩ : BufTy).Contents (Elt F)) : (⟨S20000, .f32⟩ : BufTy).Contents (Elt F) :=
  select (cmpf (F := F) .ogt (deg col) (broadcastInDim S20000 ![] bcast_S_S20000 (constant S_ .f32 0x00000000#32)))
    (Host.powf (deg col) (broadcastInDim S20000 ![] bcast_S_S20000 (constant S_ .f32 0xBF000000#32)))
    (broadcastInDim S20000 ![] bcast_S_S20000 (id (constant S_ .f32 0x00000000#32)))

/-- The weight of every edge: `dis` at its source times `dis` at its target. -/
def norm (row col : (⟨S340000, .i32⟩ : BufTy).Contents (Elt F)) : (⟨S340000, .f32⟩ : BufTy).Contents (Elt F) :=
  mulf (Host.gather gather_S20000_S340000x1_S340000_n_0_n_n_0_1_1 (dis col) (wrapIdx row))
    (Host.gather gather_S20000_S340000x1_S340000_n_0_n_n_0_1_1 (dis col) (wrapIdx col))

/-- The aggregation: every edge carries its source node's row, scaled by the edge's weight, into its target node. -/
def mid (h : (⟨S4x20000x64, .f32⟩ : BufTy).Contents (Elt F)) (row col : (⟨S340000, .i32⟩ : BufTy).Contents (Elt F)) :
    (⟨S4x20000x64, .f32⟩ : BufTy).Contents (Elt F) :=
  transpose S4x20000x64 [1, 0, 2]
    (Host.scatterAdd scatter_S20000x4x64_S340000x1_S340000x4x64_12_0_0_1
      (broadcastInDim S20000x4x64 ![] bcast_S_S20000x4x64 (constant S_ .f32 0x00000000#32))
      (broadcastInDim S340000x1 ![0] bcast_S340000_S340000x1_0 col)
      (transpose S340000x4x64 [1, 0, 2]
        (mulf (Host.gather gather_S4x20000x64_S340000x1_S4x340000x64_02_1_n_n_1_1_4164 h (wrapIdx row))
          (broadcastInDim S4x340000x64 ![0, 1, 2] bcast_S1x340000x1_S4x340000x64_0_1_2
            (broadcastInDim S1x340000x1 ![1] bcast_S340000_S1x340000x1_1 (norm row col))))
        transposes_S4x340000x64_S340000x4x64_1_0_2))
    transposes_S20000x4x64_S4x20000x64_1_0_2

/-- The reference's aggregated features are `mid` of its projection and its two edge-end lists. -/
theorem agg_eq (x0 : (⟨S4x20000x64, .f32⟩ : BufTy).Contents (Elt F)) (x1 : (⟨S2x320000, .i32⟩ : BufTy).Contents (Elt F))
    (x2 : (⟨S64x64, .f32⟩ : BufTy).Contents (Elt F)) :
    val_main_v46 (F := F) x0 x1 x2 = mid (val_main_v7 (F := F) x0 x2) (val_main_v3 (F := F) x1) (val_main_v6 (F := F) x1) := rfl

end Aggregation

/-! ## The projection and the head, read at an index on the extended reals -/

/-- The host's product of node features by the transpose of a 64×64 matrix, at `(b, n, o)`: a dense layer on node `(b, n)`'s row. -/
theorem dot64_apply (A : (⟨S4x20000x64, .f32⟩ : BufTy).Contents (Elt Ideal)) (B : (⟨S64x64, .f32⟩ : BufTy).Contents (Elt Ideal))
    (b : Fin 4) (n : Fin 20000) (o : Fin 64) :
    Host.dotGeneral (F := Ideal) (φ₁ := .f32) (φ₂ := .f32) dot_S4x20000x64_S64x64_S4x20000x64_2_1_01_0_n_n none A B (ix3 b n o)
      = dense (fun o k => B (ix2 o k)) (fun k => A (ix3 b n k)) o := by
  show val_main_v7 (F := Ideal) A B (ix3 b n o) = _
  rw [val_main_v7_apply]
  refine Finset.sum_congr rfl fun k _ => ?_
  have el : lidx_main_v7 (ix3 b n o) k = ix3 b n k := funext fun a => Fin.ext (by
    match a with
    | ⟨0, _⟩ => rfl
    | ⟨1, _⟩ => rfl
    | ⟨2, _⟩ => rfl)
  have er : ridx_main_v7 (ix3 b n o) k = ix2 o k := funext fun a => Fin.ext (by
    match a with
    | ⟨0, _⟩ => rfl
    | ⟨1, _⟩ => rfl)
  rw [el, er]

/-- The reference's projection at `(b, n, o)`. -/
theorem proj_apply (x0 : (⟨S4x20000x64, .f32⟩ : BufTy).Contents (Elt Ideal)) (x2 : (⟨S64x64, .f32⟩ : BufTy).Contents (Elt Ideal))
    (b : Fin 4) (n : Fin 20000) (o : Fin 64) :
    val_main_v7 (F := Ideal) x0 x2 (ix3 b n o) = ∑ k : Fin 64, x0 (ix3 b n k) * x2 (ix2 o k) :=
  dot64_apply x0 x2 b n o

/-- The host's product of 128-wide node rows by the transpose of a 128×128 matrix, at `(b, n, j)`. -/
theorem dot128_apply (A : (⟨S4x20000x128, .f32⟩ : BufTy).Contents (Elt Ideal)) (B : (⟨S128x128, .f32⟩ : BufTy).Contents (Elt Ideal))
    (b : Fin 4) (n : Fin 20000) (j : Fin 128) :
    Host.dotGeneral (F := Ideal) (φ₁ := .f32) (φ₂ := .f32) dot_S4x20000x128_S128x128_S4x20000x128_2_1_01_0_n_n none A B (ix3 b n j)
      = dense (fun o k => B (ix2 o k)) (fun k => A (ix3 b n k)) j := by
  simp only [Host.dotGeneral]
  rw [Ideal.dotGeneral_apply, ← Equiv.sum_comp (ValueIdx.contrEquiv1 dot_S4x20000x128_S128x128_S4x20000x128_2_1_01_0_n_n 128 rfl rfl).symm]
  refine Finset.sum_congr rfl fun k _ => ?_
  have hk := ValueIdx.contrEquiv1_symm_val dot_S4x20000x128_S128x128_S4x20000x128_2_1_01_0_n_n 128 rfl rfl k
  have el : dot_S4x20000x128_S128x128_S4x20000x128_2_1_01_0_n_n.lhsIdx (ix3 b n j) ((ValueIdx.contrEquiv1 dot_S4x20000x128_S128x128_S4x20000x128_2_1_01_0_n_n 128 rfl rfl).symm k) = ix3 b n k := funext fun a => Fin.ext (by
    match a with
    | ⟨0, _⟩ => exact lhs_main_v61_0 _ _
    | ⟨1, _⟩ => exact lhs_main_v61_1 _ _
    | ⟨2, _⟩ => exact (lhs_main_v61_2 _ _).trans hk)
  have er : dot_S4x20000x128_S128x128_S4x20000x128_2_1_01_0_n_n.rhsIdx (ix3 b n j) ((ValueIdx.contrEquiv1 dot_S4x20000x128_S128x128_S4x20000x128_2_1_01_0_n_n 128 rfl rfl).symm k) = ix2 j k := funext fun a => Fin.ext (by
    match a with
    | ⟨0, _⟩ => exact rhs_main_v61_0 _ _
    | ⟨1, _⟩ => exact (rhs_main_v61_1 _ _).trans hk)
  rw [el, er]

section Head

variable (x0 : (⟨S4x20000x64, .f32⟩ : BufTy).Contents (Elt Ideal)) (x1 : (⟨S2x320000, .i32⟩ : BufTy).Contents (Elt Ideal))
  (x2 : (⟨S64x64, .f32⟩ : BufTy).Contents (Elt Ideal)) (x3 : (⟨S64, .f32⟩ : BufTy).Contents (Elt Ideal))
  (x4 x5 x6 x7 : (⟨S64x64, .f32⟩ : BufTy).Contents (Elt Ideal)) (x8 : (⟨S128x128, .f32⟩ : BufTy).Contents (Elt Ideal))

/-- The aggregated row of node `(b, n)`. -/
abbrev aggRow (b : Fin 4) (n : Fin 20000) : Fin 64 → EReal := fun k => val_main_v46 (F := Ideal) x0 x1 x2 (ix3 b n k)

/-- The reference's gated features at `(b, n, k)`: the host's `1 / (1 + exp (-(a + bias)))` is the logistic function. -/
theorem gate_read (b : Fin 4) (n : Fin 20000) (k : Fin 64) :
    val_main_v55 (F := Ideal) x0 x1 x2 x3 (ix3 b n k) = gate (fun k => x3 (ix1 k)) (aggRow x0 x1 x2 b n) k := by
  rw [val_main_v55_apply, val_main_v54_apply, val_main_cst_11_apply, val_main_v53_apply, val_main_v52_apply,
    val_main_cst_10_apply, val_main_v51_apply, val_main_v50_apply, val_main_v49_apply, val_main_v48_apply, val_main_v47_apply]
  have e : idx_main_v47 (idx_main_v48 (ix3 b n k)) = ix1 k := funext fun a => Fin.ext (by
    match a with
    | ⟨0, _⟩ => rfl)
  rw [e]
  simp only [Ideal.hostDivf_def, Ideal.addf_def, Ideal.hostUnary_exp_def, Ideal.hostNegf_def, Ideal.negf_def, Ideal.ofBits_def,
    Ideal.ofBits_one_f32]
  rfl

/-- The upper branch at `(b, n, o)`. -/
theorem upper_read (b : Fin 4) (n : Fin 20000) (o : Fin 64) :
    val_main_v57 (F := Ideal) x0 x1 x2 x3 x4 x5 (ix3 b n o)
      = dense (fun o k => x5 (ix2 o k)) (dense (fun o k => x4 (ix2 o k)) (gate (fun k => x3 (ix1 k)) (aggRow x0 x1 x2 b n))) o := by
  unfold val_main_v57
  rw [dot64_apply]
  refine congrFun (congrArg (dense _) (funext fun k => ?_)) o
  unfold val_main_v56
  rw [dot64_apply]
  exact congrFun (congrArg (dense _) (funext fun k' => gate_read x0 x1 x2 x3 b n k')) k

/-- The lower branch at `(b, n, o)`. -/
theorem lower_read (b : Fin 4) (n : Fin 20000) (o : Fin 64) :
    val_main_v59 (F := Ideal) x0 x1 x2 x3 x6 x7 (ix3 b n o)
      = dense (fun o k => x7 (ix2 o k)) (dense (fun o k => x6 (ix2 o k)) (gate (fun k => x3 (ix1 k)) (aggRow x0 x1 x2 b n))) o := by
  unfold val_main_v59
  rw [dot64_apply]
  refine congrFun (congrArg (dense _) (funext fun k => ?_)) o
  unfold val_main_v58
  rw [dot64_apply]
  exact congrFun (congrArg (dense _) (funext fun k' => gate_read x0 x1 x2 x3 b n k')) k

/-- Two rank-3 feature arrays joined along the feature axis, at `(b, n, q)`: the join of the two rows of node `(b, n)`. -/
theorem join_read (U L : (⟨S4x20000x64, .f32⟩ : BufTy).Contents (Elt Ideal)) (b : Fin 4) (n : Fin 20000) (q : Fin 128) :
    concatenate S4x20000x128 2 [⟨S4x20000x64, U⟩, ⟨S4x20000x64, L⟩] concatenates_S4x20000x64_S4x20000x64_S4x20000x128_d2 (ix3 b n q)
      = join (fun k => U (ix3 b n k)) (fun k => L (ix3 b n k)) q := by
  by_cases h : q.val < 64
  · rw [join_left _ _ q h]
    exact concatenate_pair_apply_left (2 : Fin 3) U L concatenates_S4x20000x64_S4x20000x64_S4x20000x128_d2 (ix3 b n q) rfl
      (ix3 b n ⟨q.val, h⟩) (fun ax => by
        match ax with
        | ⟨0, _⟩ => rfl
        | ⟨1, _⟩ => rfl
        | ⟨2, _⟩ => rfl)
  · have h64 : 64 ≤ q.val := Nat.le_of_not_lt h
    have hb : q.val - 64 < 64 := by have := q.isLt; omega
    rw [join_right _ _ q h64 hb]
    exact concatenate_pair_apply_right (2 : Fin 3) U L concatenates_S4x20000x64_S4x20000x64_S4x20000x128_d2 (ix3 b n q) rfl rfl
      (ix3 b n ⟨q.val - 64, hb⟩) (fun ax hax => by
        match ax with
        | ⟨0, _⟩ => rfl
        | ⟨1, _⟩ => rfl
        | ⟨2, _⟩ => exact absurd rfl hax) (by
        show (q.val - 64) + 64 = q.val
        omega)

/-- The reference's result at `(b, n, j)`: entry `j` of the head of node `(b, n)`'s aggregated row. -/
theorem head_read (b : Fin 4) (n : Fin 20000) (j : Fin 128) :
    val_main_v62 (F := Ideal) x0 x1 x2 x3 x4 x5 x6 x7 x8 (ix3 b n j)
      = head (fun k => x3 (ix1 k)) (fun o k => x4 (ix2 o k)) (fun o k => x5 (ix2 o k)) (fun o k => x6 (ix2 o k))
          (fun o k => x7 (ix2 o k)) (fun o k => x8 (ix2 o k)) (aggRow x0 x1 x2 b n) j := by
  rw [val_main_v62_apply, val_main_call1_v0_apply, val_main_call1_cst_apply]
  unfold head
  refine congrArg₂ max ?_ rfl
  unfold val_main_v61
  rw [dot128_apply]
  refine congrFun (congrArg (dense _) (funext fun q => ?_)) j
  unfold val_main_v60
  rw [join_read]
  exact congrFun (congrArg₂ join (funext fun k => upper_read x0 x1 x2 x3 x4 x5 b n k)
    (funext fun k => lower_read x0 x1 x2 x3 x6 x7 b n k)) q

end Head

end Cert.ReferenceIdeal.Split

end
-- ==== Proof.KernelHost.lean ====
/-
  The host stretches of the kernel program, read as values.

  Before the projection region the node features are flattened to 80000 rows and the two edge-end lists are built (the
  given ends followed by one self loop per node). Between the regions the projected rows are folded back to
  `[4, 20000, 64]`, aggregated over the graph and flattened again: the operations are, one for one, the reference's
  aggregation `mid` applied to the kernel's own projected features. After the head region its 80000 rows are folded
  back to `[4, 20000, 128]`. The weights, the bias and the edge lists reach every later boundary as launched.
  Everything here holds at any float family.
-/
import proofs.«123312_j50448685859377_1_alg».proof.Proof.Gen.KernelIdeal.Frame
import proofs.«123312_j50448685859377_1_alg».proof.Proof.RefSplit

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Before the projection region -/

/-- The projection region finds the node features flattened to rows. -/
theorem feats_rows (c : Dev nD) :
    V1 m ρ c main_v7 = shapeCast S80000x64 (m ((c : Thread nD τ).loc main_arg0)) shapeCasts_S4x20000x64_S80000x64 := by
  show StableHlo.after hostOps0 (W0 m ρ c) (Proc.devRef .tc main_v7) = _
  after_results <;> rfl

/-- It finds the projection weights as launched. -/
theorem lin_w_kept (c : Dev nD) : V1 m ρ c main_arg2 = m ((c : Thread nD τ).loc main_arg2) := by
  show StableHlo.after hostOps0 (W0 m ρ c) (Proc.devRef .tc main_arg2) = _
  after_results <;> rfl

/-- The source ends of the edges, self loops appended: the reference's list. -/
theorem rows_eq (c : Dev nD) :
    W2 m ρ c (Proc.devRef .tc main_v3) = Cert.ReferenceIdeal.PRead.val_main_v3 (F := F) (m ((c : Thread nD τ).loc main_arg1)) := by
  refine (W2_of_ne m ρ c main_v3 (by decide)).trans ?_
  show StableHlo.after hostOps0 (W0 m ρ c) (Proc.devRef .tc main_v3) = _
  after_results <;> rfl

/-- The target ends of the edges, self loops appended: the reference's list. -/
theorem cols_eq (c : Dev nD) :
    W2 m ρ c (Proc.devRef .tc main_v6) = Cert.ReferenceIdeal.PRead.val_main_v6 (F := F) (m ((c : Thread nD τ).loc main_arg1)) := by
  refine (W2_of_ne m ρ c main_v6 (by decide)).trans ?_
  show StableHlo.after hostOps0 (W0 m ρ c) (Proc.devRef .tc main_v6) = _
  after_results <;> rfl

/-! ## Between the regions -/

/-- The head region finds the aggregation of the projected rows, flattened: `mid` of the projection region's output
    array folded to `[4, 20000, 64]` and the two edge-end lists. -/
theorem agg_rows (c : Dev nD) :
    V5 m ρ c main_v49
      = shapeCast S80000x64
          (Cert.ReferenceIdeal.Split.mid (F := F)
            (shapeCast S4x20000x64 (W2 m ρ c (Proc.devRef .tc main_v8)) shapeCasts_S80000x64_S4x20000x64)
            (W2 m ρ c (Proc.devRef .tc main_v3)) (W2 m ρ c (Proc.devRef .tc main_v6)))
          shapeCasts_S4x20000x64_S80000x64 := by
  show StableHlo.after hostOps1_2 (StableHlo.after hostOps1_1 (StableHlo.after hostOps1 (W2 m ρ c))) (Proc.devRef .tc main_v49) = _
  after_results_simp
  rfl

/-- No host operation after the last region writes an argument. -/
theorem last_kept (c : Dev nD) (r : Ref sig .tc) (h : r ≠ main_v51) :
    W7 m ρ c (Proc.devRef .tc r) = W6 m ρ c (Proc.devRef .tc r) := by
  show StableHlo.after hostOps2 (W6 m ρ c) (Proc.devRef .tc r) = _
  simp only [hostOps2, after_cons, after_nil]
  rw [reshape_result_ne]
  exact h

/-- The head region leaves its input arrays as it found them. -/
theorem head_in_kept (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))

/-- The head region finds the bias as launched. -/
theorem bias_kept (c : Dev nD) : V5 m ρ c main_arg3 = m ((c : Thread nD τ).loc main_arg3) :=
  ((head_in_kept m ρ c 1 rfl).symm.trans (last_kept m ρ c main_arg3 (by decide)).symm).trans (W7_main_arg3 m ρ c)
/-- It finds `up1_w` as launched. -/
theorem up1_kept (c : Dev nD) : V5 m ρ c main_arg4 = m ((c : Thread nD τ).loc main_arg4) :=
  ((head_in_kept m ρ c 2 rfl).symm.trans (last_kept m ρ c main_arg4 (by decide)).symm).trans (W7_main_arg4 m ρ c)
/-- It finds `up2_w` as launched. -/
theorem up2_kept (c : Dev nD) : V5 m ρ c main_arg5 = m ((c : Thread nD τ).loc main_arg5) :=
  ((head_in_kept m ρ c 3 rfl).symm.trans (last_kept m ρ c main_arg5 (by decide)).symm).trans (W7_main_arg5 m ρ c)
/-- It finds `lo1_w` as launched. -/
theorem lo1_kept (c : Dev nD) : V5 m ρ c main_arg6 = m ((c : Thread nD τ).loc main_arg6) :=
  ((head_in_kept m ρ c 4 rfl).symm.trans (last_kept m ρ c main_arg6 (by decide)).symm).trans (W7_main_arg6 m ρ c)
/-- It finds `lo2_w` as launched. -/
theorem lo2_kept (c : Dev nD) : V5 m ρ c main_arg7 = m ((c : Thread nD τ).loc main_arg7) :=
  ((head_in_kept m ρ c 5 rfl).symm.trans (last_kept m ρ c main_arg7 (by decide)).symm).trans (W7_main_arg7 m ρ c)
/-- It finds `last_w` as launched. -/
theorem last_w_kept (c : Dev nD) : V5 m ρ c main_arg8 = m ((c : Thread nD τ).loc main_arg8) :=
  ((head_in_kept m ρ c 6 rfl).symm.trans (last_kept m ρ c main_arg8 (by decide)).symm).trans (W7_main_arg8 m ρ c)

/-! ## After the head region -/

/-- The result is the head region's output array folded to `[4, 20000, 128]`. -/
theorem result_fold (c : Dev nD) :
    W7 m ρ c (Proc.devRef .tc main_v51)
      = shapeCast S4x20000x128 (W6 m ρ c (Proc.devRef .tc main_v50)) shapeCasts_S80000x128_S4x20000x128 := by
  show StableHlo.after hostOps2 (W6 m ρ c) (Proc.devRef .tc main_v51) = _
  after_results <;> rfl

end Cert.KernelIdeal.Host

end
-- ==== Proof.LibFlattenRows.lean ====
/-
  The two leading axes of a rank-3 array merged into one, and split again, read at an index: an [a, b, c] array recast as
  [n, c] with n = a · b has row (p, s) of the one at row p · b + s of the other, column for column, because both positions are
  the ((p · b + s) · c + k)-th in row-major order.
-/
import Idealize.ShloMosaic.Lib.Pipeline.Value
import Idealize.ShloMosaic.Lib.ValueIdx

noncomputable section

namespace Idealize.ShloMosaic.FlattenRows

open Idealize.ShloMosaic Idealize.ShloMosaic.ValueIdx

variable {α : Type}

/-- An `[a, b, c]` array recast as `[n, c]` reads, at `(r, k)` with `r = p · b + s`, the operand at `(p, s, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (s : Fin b) (k : Fin c) (r : Fin n)
    (hr : r.val = p.val * b + s.val) : shapeCast ⟨2, ![n, c]⟩ x h (ix2 r k) = x (ix3 p s k) :=
  shapeCast_apply x h _ _ (by
    rw [Shape.rowMajor_val_three, Shape.rowMajor_val_two]
    show (p.val * b + s.val) * c + k.val = r.val * c + k.val
    rw [hr])

/-- An `[n, c]` array recast as `[a, b, c]` reads, at `(p, s, k)`, the operand at `(r, k)` with `r = p · b + s`. -/
theorem shapeCast_nc_abc_apply {a b c n : ℕ} (y : (⟨2, ![n, c]⟩ : Shape).Idx → α)
    (h : (⟨2, ![n, c]⟩ : Shape).ShapeCasts ⟨3, ![a, b, c]⟩) (p : Fin a) (s : Fin b) (k : Fin c) (r : Fin n)
    (hr : r.val = p.val * b + s.val) : shapeCast ⟨3, ![a, b, c]⟩ y h (ix3 p s k) = y (ix2 r k) :=
  shapeCast_apply y h _ _ (by
    rw [Shape.rowMajor_val_three, Shape.rowMajor_val_two]
    show r.val * c + k.val = (p.val * b + s.val) * c + k.val
    rw [hr])

end Idealize.ShloMosaic.FlattenRows

end
-- ==== Proof.KernelValue.lean ====
/-
  The kernel program's result is the reference's function of the same arguments.

  Node `(b, n)` is row `r = b · 20000 + n` of every flattened array. The projection region leaves at row `r` the inner
  products of node `(b, n)`'s features with the rows of `lin_w`: folded back, that is the reference's projection. Both
  programs then aggregate over the graph by the same operations (`mid`) with the same two edge-end lists, so the head region
  finds at row `r` the reference's aggregated row of node `(b, n)`; it leaves there the head of that row, and the
  reference's result at `(b, n, j)` is entry `j` of the same head of the same row.
-/
import proofs.«123312_j50448685859377_1_alg».proof.Proof.KernelArrays
import proofs.«123312_j50448685859377_1_alg».proof.Proof.KernelHost
import proofs.«123312_j50448685859377_1_alg».proof.Proof.LibFlattenRows

set_option maxRecDepth 16384

noncomputable section

open scoped BigOperators

namespace Cert.KernelIdeal.Result

open Idealize.ShloMosaic Idealize.ShloMosaic.TcCoe Idealize.ShloMosaic.ValueIdx Idealize.SL.Sem
open Idealize.ShloMosaic.FlattenRows
open Cert.KernelIdeal Cert.KernelIdeal.Gen Cert.KernelIdeal.Arrays Cert.KernelIdeal.Host Cert.Gcn

variable (m : (ℓ : Loc nD τ sig) → Buf (Elt Ideal) ℓ) (ρ : Dev nD → PrngReg)

/-- The launched node features, at their literal type. -/
abbrev featsL (c : Dev nD) : S4x20000x64.Idx → EReal := m ((c : Thread nD τ).loc main_arg0)
/-- The launched projection weights, at their literal type. -/
abbrev linWL (c : Dev nD) : S64x64.Idx → EReal := m ((c : Thread nD τ).loc main_arg2)

/-- Node `(b, n)` is row `b · 20000 + n` of the flattened arrays. -/
theorem row_lt (b : Fin 4) (n : Fin 20000) : b.val * 20000 + n.val < 80000 := by
  have := b.isLt; have := n.isLt; omega

/-- The projection region's output array, folded back to `[4, 20000, 64]`, is the reference's projection of the features. -/
theorem proj_eq (c : Dev nD) :
    shapeCast S4x20000x64 (W2 m ρ c (Proc.devRef .tc main_v8)) shapeCasts_S80000x64_S4x20000x64
      = Cert.ReferenceIdeal.PRead.val_main_v7 (F := Ideal) (m ((c : Thread nD τ).loc main_arg0)) (m ((c : Thread nD τ).loc main_arg2)) := by
  funext i
  obtain ⟨b, n, o, rfl⟩ : ∃ (b : Fin 4) (n : Fin 20000) (o : Fin 64), i = ix3 b n o := ⟨i 0, i 1, i 2, eq_ix3 i⟩
  rw [shapeCast_nc_abc_apply _ _ b n o ⟨b.val * 20000 + n.val, row_lt b n⟩ rfl, Cert.ReferenceIdeal.Split.proj_apply]
  have h8 : W2 m ρ c (Proc.devRef .tc main_v8) = projRows (V1 m ρ c main_v7) (V1 m ρ c main_arg2) :=
    (W2_arr m ρ c 2).trans (arr0 (V1 m ρ) c)
  rw [h8, feats_rows, lin_w_kept]
  show ∑ k : Fin 64, shapeCast S80000x64 (featsL m c) shapeCasts_S4x20000x64_S80000x64 (ix2 ⟨b.val * 20000 + n.val, row_lt b n⟩ k)
      * linWL m c (ix2 o k) = ∑ k : Fin 64, featsL m c (ix3 b n k) * linWL m c (ix2 o k)
  refine Finset.sum_congr rfl fun k _ => ?_
  rw [shapeCast_abc_nc_apply _ _ b n k ⟨b.val * 20000 + n.val, row_lt b n⟩ rfl]

/-- What the head region finds at row `b · 20000 + n`: the reference's aggregated row of node `(b, n)`. -/
theorem agg_row_eq (c : Dev nD) (b : Fin 4) (n : Fin 20000) (k : Fin 64) :
    V5 m ρ c main_v49 (ix2 ⟨b.val * 20000 + n.val, row_lt b n⟩ k)
      = Cert.ReferenceIdeal.PRead.val_main_v46 (F := Ideal) (m ((c : Thread nD τ).loc main_arg0)) (m ((c : Thread nD τ).loc main_arg1)) (m ((c : Thread nD τ).loc main_arg2)) (ix3 b n k) := by
  rw [agg_rows, shapeCast_abc_nc_apply _ _ b n k ⟨b.val * 20000 + n.val, row_lt b n⟩ rfl, proj_eq, rows_eq, cols_eq,
    Cert.ReferenceIdeal.Split.agg_eq]

/-- THE RESULT: the kernel program's result array is the reference's result function of the launched arguments. -/
theorem result_eq (c : Dev nD) :
    W7 m ρ c (Proc.devRef .tc main_v51)
      = Cert.ReferenceIdeal.PRead.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨b, n, j, rfl⟩ : ∃ (b : Fin 4) (n : Fin 20000) (j : Fin 128), i = ix3 b n j := ⟨i 0, i 1, i 2, eq_ix3 i⟩
  rw [result_fold, shapeCast_nc_abc_apply _ _ b n j ⟨b.val * 20000 + n.val, row_lt b n⟩ rfl,
    Cert.ReferenceIdeal.Split.head_read]
  have h50 : W6 m ρ c (Proc.devRef .tc main_v50)
      = headRows (V5 m ρ c main_v49) (V5 m ρ c main_arg3) (V5 m ρ c main_arg4) (V5 m ρ c main_arg5) (V5 m ρ c main_arg6)
          (V5 m ρ c main_arg7) (V5 m ρ c main_arg8) := (W6_arr m ρ c 7).trans (arr1 (V5 m ρ) c)
  rw [h50, bias_kept, up1_kept, up2_kept, lo1_kept, lo2_kept, last_w_kept]
  show head (fun k => (m ((c : Thread nD τ).loc main_arg3)) (ix1 k)) (fun o k => (m ((c : Thread nD τ).loc main_arg4)) (ix2 o k)) (fun o k => (m ((c : Thread nD τ).loc main_arg5)) (ix2 o k))
      (fun o k => (m ((c : Thread nD τ).loc main_arg6)) (ix2 o k)) (fun o k => (m ((c : Thread nD τ).loc main_arg7)) (ix2 o k)) (fun o k => (m ((c : Thread nD τ).loc main_arg8)) (ix2 o k))
      (fun k => V5 m ρ c main_v49 (ix2 ⟨b.val * 20000 + n.val, row_lt b n⟩ k)) j = _
  exact congrArg (fun row => head (fun k => (m ((c : Thread nD τ).loc main_arg3)) (ix1 k)) (fun o k => (m ((c : Thread nD τ).loc main_arg4)) (ix2 o k)) (fun o k => (m ((c : Thread nD τ).loc main_arg5)) (ix2 o k))
      (fun o k => (m ((c : Thread nD τ).loc main_arg6)) (ix2 o k)) (fun o k => (m ((c : Thread nD τ).loc main_arg7)) (ix2 o k)) (fun o k => (m ((c : Thread nD τ).loc main_arg8)) (ix2 o k)) row j)
    (funext fun k => agg_row_eq m ρ c b n k)

end Cert.KernelIdeal.Result

end
-- ==== Proof.lean ====
/-
  The certificate of a two-kernel graph-convolution layer against its jnp reference, on the extended reals.

  Both programs project every node's features by the transpose of `lin_w`, aggregate over the graph with symmetric degree
  normalisation, add the bias, apply the logistic function, run two branches of two dense layers each, join them, apply a
  last dense layer and clip at zero. The kernel program does the projection and the head in two Pallas kernels over flattened
  rows (with bf16 narrowings, which are the identity on the extended reals) and the aggregation in the same host operations
  as the reference. The frames of the two kernel programs are the generated ones; the reference's frame is its run with the
  result dropped; the ideal pass rewrote nothing, so `preserves` is trivial; and the two results are one function of the
  arguments (Proof/KernelValue.lean: `Cert.KernelIdeal.Result.result_eq`).
-/
import proofs.«123312_j50448685859377_1_alg».proof.Defs
import proofs.«123312_j50448685859377_1_alg».proof.Proof.Gen.Kernel
import proofs.«123312_j50448685859377_1_alg».proof.Proof.Gen.Kernel.Skeleton
import proofs.«123312_j50448685859377_1_alg».proof.Proof.Gen.Kernel.Launch
import proofs.«123312_j50448685859377_1_alg».proof.Proof.Gen.Kernel.Points
import proofs.«123312_j50448685859377_1_alg».proof.Proof.Gen.Kernel.Frame
import proofs.«123312_j50448685859377_1_alg».proof.Proof.Gen.KernelIdeal
import proofs.«123312_j50448685859377_1_alg».proof.Proof.Gen.KernelIdeal.Skeleton
import proofs.«123312_j50448685859377_1_alg».proof.Proof.Gen.KernelIdeal.Launch
import proofs.«123312_j50448685859377_1_alg».proof.Proof.Gen.KernelIdeal.Points
import proofs.«123312_j50448685859377_1_alg».proof.Proof.Gen.KernelIdeal.Frame
import proofs.«123312_j50448685859377_1_alg».proof.Proof.Gen.ReferenceIdeal
import proofs.«123312_j50448685859377_1_alg».proof.Proof.Gen.Pre_finite_inputs
import proofs.«123312_j50448685859377_1_alg».proof.Proof.RefRun
import proofs.«123312_j50448685859377_1_alg».proof.Proof.RefRead
import proofs.«123312_j50448685859377_1_alg».proof.Proof.KernelRun
import proofs.«123312_j50448685859377_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.PValue.run (F := Ideal) m ρ)

/-- The ideal pass rewrote no operation. -/
theorem preserves : Cert.preserves_Kernel_KernelIdeal := trivial

/-- Run from memories that agree on the arguments, the kernel program ends with its result at the reference's function of its own
    arguments, and the reference with its result at the same function of the same arguments. -/
theorem algebraic : Cert.algebraic_KernelIdeal_ReferenceIdeal := by
  intro m ρ m' ρ' _ hagree
  refine ⟨fun c => Cert.KernelIdeal.Gen.W7 (F := Ideal) m ρ c (Proc.devRef .tc Cert.KernelIdeal.main_v51),
    Cert.KernelIdeal.Run.run (F := Ideal) m ρ, ?_⟩
  refine (θ_run Cert.ReferenceIdeal.defs _ _).mono (fun _ h c => ⟨(h c).1.trans ?_, (h c).2⟩)
    (Cert.ReferenceIdeal.PValue.run (F := Ideal) m' ρ')
  obtain ⟨a0, a1, a2, a3, a4, a5, a6, a7, a8⟩ := hagree c
  rw [Cert.ReferenceIdeal.PRead.val_main_v62_eq, a0, a1, a2, a3, a4, a5, a6, a7, a8]
  exact (Cert.KernelIdeal.Result.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
